-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x120006 : Shape := ⟨2, ![2048, 120006]⟩
abbrev S_ : Shape := ⟨0, ![]⟩

class Facts : Prop where
  bcast_S_S2048x120006 : S_.BroadcastsInDim S2048x120006 (![] : Fin 0 → Fin S2048x120006.rank)
  reducesTo_S2048x120006_S_d0_1 : S2048x120006.ReducesTo [0, 1] S_
  h_S_ : 0 < S_.numel

variable [Facts]

def fn {F : FTy → Type} [FloatOps F] (main_arg0 : FVec F S2048x120006 .f32) : IVec S_ 1 :=
  let main_v0 : FVec F S2048x120006 .f32 := Host.absf main_arg0
  let main_cst : FVec F S_ .f32 := constant S_ .f32 0x7F800000#32
  let main_v1 : FVec F S2048x120006 .f32 := broadcastInDim S2048x120006 ![] bcast_S_S2048x120006 main_cst
  let main_v2 : IVec S2048x120006 1 := cmpf .olt main_v0 main_v1
  let main_c : IVec S_ 1 := constantI S_ 1 1#1
  let main_v3 : IVec S_ 1 := (fun x v => Host.reduce IntOp.andi x v reducesTo_S2048x120006_S_d0_1 h_S_) main_v2 main_c
  main_v3
-- ==== Kernel.lean ====
abbrev S2048x120006 : Shape := ⟨2, ![2048, 120006]⟩
abbrev S2048x6 : Shape := ⟨2, ![2048, 6]⟩
abbrev S2048x1 : Shape := ⟨2, ![2048, 1]⟩
abbrev S32x40064 : Shape := ⟨2, ![32, 40064]⟩
abbrev S32x6 : Shape := ⟨2, ![32, 6]⟩
abbrev S32x1 : Shape := ⟨2, ![32, 1]⟩
abbrev S32x2 : Shape := ⟨2, ![32, 2]⟩
abbrev S32 : Shape := ⟨1, ![32]⟩

abbrev nBuf : Space → Nat
  | .hbm => 3
  | .vmem => 6
  | .smem => 0
  | _ => 0

abbrev bufTy : (tb : Table) → Fin (tcTables nBuf tb) → BufTy
  | .hbm, ⟨0, _⟩ => ⟨S2048x120006, .f32⟩
  | .hbm, ⟨1, _⟩ => ⟨S2048x6, .f32⟩
  | .hbm, ⟨2, _⟩ => ⟨S2048x1, .f32⟩
  | .local _ .vmem, ⟨0, _⟩ => ⟨S32x40064, .f32⟩
  | .local _ .vmem, ⟨1, _⟩ => ⟨S32x40064, .f32⟩
  | .local _ .vmem, ⟨2, _⟩ => ⟨S32x6, .f32⟩
  | .local _ .vmem, ⟨3, _⟩ => ⟨S32x6, .f32⟩
  | .local _ .vmem, ⟨4, _⟩ => ⟨S32x1, .f32⟩
  | .local _ .vmem, ⟨5, _⟩ => ⟨S32x1, .f32⟩
  | _, _ => ⟨S2048x120006, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x40064 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2048x120006_S2048x6_0_120000 : S2048x120006.Slices ![0, 120000] S2048x6
  inb_S32x6_S32x2_0_0 : ∀ a, (![0, 0] : Fin 2 → Nat) a + S32x2.size a ≤ S32x6.size a
  h_S32x2 : 0 < S32x2.numel
  shapeCasts_S32x2_S32x2 : S32x2.ShapeCasts S32x2
  inb_S32x6_S32x2_0_2 : ∀ a, (![0, 2] : Fin 2 → Nat) a + S32x2.size a ≤ S32x6.size a
  inb_S32x6_S32x2_0_4 : ∀ a, (![0, 4] : Fin 2 → Nat) a + S32x2.size a ≤ S32x6.size a
  slices_S32x2_o0_0_S32x1 : S32x2.Slices ![0, 0] S32x1
  shapeCasts_S32x1_S32 : S32x1.ShapeCasts S32
  slices_S32x2_o0_1_S32x1 : S32x2.Slices ![0, 1] S32x1
  iota_S32x40064_d1_w32 : S32x40064.Iotas .tc 32 [1]
  shapeCasts_S32_S32x1 : S32.ShapeCasts S32x1
  broadcasts_S32x1_S32x40064 : S32x1.Broadcasts S32x40064
  inb_S32x40064_S32x40064_0_0 : ∀ a, (![0, 0] : Fin 2 → Nat) a + S32x40064.size a ≤ S32x40064.size a
  h_S32x40064 : 0 < S32x40064.numel
  reduces_S32x40064_S32 : S32x40064.Reduces [1] S32
  inb_S32x1_S32x1_0_0 : ∀ a, (![0, 0] : Fin 2 → Nat) a + S32x1.size a ≤ S32x1.size a
  h_S32x1 : 0 < S32x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x40064.size a < S2048x120006.size a
  hwx0_0 : ∀ i : grid0.Coords, EltTy.bits .f32 = 32 ∨ (Rect.unit (s := S2048x120006) (fun a => cc0_transform_0 i a * S32x40064.size a) (fun a => (Pipeline.Clip.of (cc0_transform_0 i a) (S32x40064.size a) (S2048x120006.size a)).extent (S32x40064.size a)) fun a => Pipeline.Clip.inb (Pipeline.Clip.ok_of (hstart0_0 i a))).WholeWords (EltTy.packing .f32)
  hwxs0_0 : ∀ i : grid0.Coords, EltTy.bits .f32 = 32 ∨ (Rect.unit (s := S32x40064) (fun _ => 0) (fun a => (Pipeline.Clip.of (cc0_transform_0 i a) (S32x40064.size a) (S2048x120006.size a)).extent (S32x40064.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x6.size a ≤ S2048x6.size a
  hwx0_1 : ∀ i : grid0.Coords, EltTy.bits .f32 = 32 ∨ (Rect.block (s := S2048x6) S32x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S2048x1.size a
  hwx0_2 : ∀ i : grid0.Coords, EltTy.bits .f32 = 32 ∨ (Rect.block (s := S2048x1) S32x1.size (cc0_transform_2 i) (hinb0_2 i)).WholeWords (EltTy.packing .f32)

variable [Facts₀]

abbrev win0_0 : Pipeline.Window sig grid0 :=
  Pipeline.Window.ofSpecClip (Memref.whole main_arg0) S32x40064.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S32x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x120006 : Shape := ⟨2, ![2048, 120006]⟩
abbrev S2048x40000 : Shape := ⟨2, ![2048, 40000]⟩
abbrev S2048x2 : Shape := ⟨2, ![2048, 2]⟩
abbrev S2048x1 : Shape := ⟨2, ![2048, 1]⟩
abbrev S2048 : Shape := ⟨1, ![2048]⟩
abbrev S_ : Shape := ⟨0, ![]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S2048x120006, .f32⟩
  | .hbm, ⟨1, _⟩ => ⟨S2048x40000, .f32⟩
  | .hbm, ⟨2, _⟩ => ⟨S2048x2, .f32⟩
  | .hbm, ⟨3, _⟩ => ⟨S2048x2, .f32⟩
  | .hbm, ⟨4, _⟩ => ⟨S2048x2, .f32⟩
  | .hbm, ⟨5, _⟩ => ⟨S2048x2, .f32⟩
  | .hbm, ⟨6, _⟩ => ⟨S2048x2, .f32⟩
  | .hbm, ⟨7, _⟩ => ⟨S2048x2, .i32⟩
  | .hbm, ⟨8, _⟩ => ⟨S2048x1, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048x1, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S2048x1, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i1⟩
  | .hbm, ⟨33, _⟩ => ⟨S2048x1, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048x1, .i32⟩
  | .hbm, ⟨48, _⟩ => ⟨S_, .i32⟩
  | .hbm, ⟨49, _⟩ => ⟨S2048x1, .i32⟩
  | .hbm, ⟨50, _⟩ => ⟨S2048x1, .i1⟩
  | .hbm, ⟨51, _⟩ => ⟨S_, .i32⟩
  | .hbm, ⟨52, _⟩ => ⟨S2048x1, .i32⟩
  | .hbm, ⟨53, _⟩ => ⟨S2048x1, .i32⟩
  | .hbm, ⟨54, _⟩ => ⟨S2048x1, .i32⟩
  | .hbm, ⟨55, _⟩ => ⟨S2048x1x1, .i32⟩
  | .hbm, ⟨56, _⟩ => ⟨S1, .i32⟩
  | .hbm, ⟨57, _⟩ => ⟨S_, .i32⟩
  | .hbm, ⟨58, _⟩ => ⟨S2048x1x1, .i32⟩
  | .hbm, ⟨59, _⟩ => ⟨S2048x1x1, .i1⟩
  | .hbm, ⟨60, _⟩ => ⟨S1x1x1, .i32⟩
  | .hbm, ⟨61, _⟩ => ⟨S2048x1x1, .i32⟩
  | .hbm, ⟨62, _⟩ => ⟨S2048x1x1, .i1⟩
  | .hbm, ⟨63, _⟩ => ⟨S2048x1x1, .i1⟩
  | .hbm, ⟨64, _⟩ => ⟨S_, .i1⟩
  | .hbm, ⟨65, _⟩ => ⟨S2048x1, .i1⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S2048x1, .i1⟩
  | .hbm, ⟨71, _⟩ => ⟨S_, .f32⟩
  | .hbm, ⟨72, _⟩ => ⟨S2048x1, .f32⟩
  | .hbm, ⟨73, _⟩ => ⟨S2048x1, .f32⟩
  | _, _ => ⟨S2048x120006, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_2 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_3 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_4 : Ref sig .tc := ⟨.hbm, 39, rfl⟩
abbrev main_c_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v33 : Ref sig .tc := ⟨.hbm, 46, rfl⟩
abbrev main_v34 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_cst : Ref sig .tc := ⟨.hbm, 67, rfl⟩
abbrev main_call1_v14 : Ref sig .tc := ⟨.hbm, 68, rfl⟩
abbrev main_v35 : Ref sig .tc := ⟨.hbm, 69, rfl⟩
abbrev main_v36 : Ref sig .tc := ⟨.hbm, 70, rfl⟩
abbrev main_cst : Ref sig .tc := ⟨.hbm, 71, rfl⟩
abbrev main_call2_v0 : Ref sig .tc := ⟨.hbm, 72, rfl⟩
abbrev main_v37 : Ref sig .tc := ⟨.hbm, 73, rfl⟩

abbrev nD : Nat := 1
abbrev τ : Topo := Topo.v7x

variable {F : FTy → Type} [FloatOps F]

class Facts₀ : Prop where
  slices_S2048x120006_S2048x40000_0_0 : S2048x120006.Slices ![0, 0] S2048x40000
  slices_S2048x120006_S2048x2_0_120000 : S2048x120006.Slices ![0, 120000] S2048x2
  slices_S2048x120006_S2048x2_0_120002 : S2048x120006.Slices ![0, 120002] S2048x2
  slices_S2048x120006_S2048x2_0_120004 : S2048x120006.Slices ![0, 120004] S2048x2
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  slices_S2048x2_S2048x1_0_1 : S2048x2.Slices ![0, 1] S2048x1
  bcast_S2048_S2048x1_0 : S2048.BroadcastsInDim S2048x1 (![0] : Fin 1 → Fin S2048x1.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  h_S_ : 0 < S_.numel
  gather_S2048x40000_S2048x1x1_S2048x1_n_1_0_0_1_2_11_wf : GatherDims.WF S2048x40000 S2048x1x1 S2048x1 [] [1] [0] [1] [0] 2 ![1, 1]

variable [Facts₀]

def gather_S2048x40000_S2048x1x1_S2048x1_n_1_0_0_1_2_11 : GatherDims S2048x40000 S2048x1x1 S2048x1 where
  offsetDims := []
  collapsedSliceDims := [1]
  operandBatchingDims := [0]
  startIndicesBatchingDims := [0]
  startIndexMap := [1]
  indexVectorDim := 2
  sliceSizes := ![1, 1]
  wf := gather_S2048x40000_S2048x1x1_S2048x1_n_1_0_0_1_2_11_wf

class Facts : Prop extends Facts₀ where

variable [Facts]
-- ==== Proof.Kernel.Out.lean ====
/-
  What the kernel body leaves in the result window's staging buffer, as a function of what the two
  input windows' staging buffers hold: its one store, over the whole 32 x 1 buffer, of the body's
  arithmetic applied to three two-column loads of the 32 x 6 tail block and the whole load of the
  32 x 40064 table block.
-/
import proofs.«152569_j56307021251002_1_alg».proof.Proof.Gen.Kernel.Skeleton
import Idealize.ShloMosaic.Lib.Pipeline.FrameBody

noncomputable section

namespace Cert.Kernel.Hand

open Cert.Kernel Cert.Kernel.Gen
open Idealize.ShloMosaic Idealize.SL.Sem

variable {F : FTy → Type} [FloatOps F]

/-- The body's accesses: columns 0-1, 2-3 and 4-5 of the tail block, the whole table block, the whole result block. -/
abbrev rRes : Rect S32x6 := Rect.unit (s := S32x6) ![0, 0] S32x2.size inb_S32x6_S32x2_0_0
abbrev rOrg : Rect S32x6 := Rect.unit (s := S32x6) ![0, 2] S32x2.size inb_S32x6_S32x2_0_2
abbrev rPt : Rect S32x6 := Rect.unit (s := S32x6) ![0, 4] S32x2.size inb_S32x6_S32x2_0_4
abbrev rTbl : Rect S32x40064 := Rect.unit (s := S32x40064) ![0, 0] S32x40064.size inb_S32x40064_S32x40064_0_0
abbrev rOut : Rect S32x1 := Rect.unit (s := S32x1) ![0, 0] S32x1.size inb_S32x1_S32x1_0_0

/-- The stored value: the body's arithmetic of the four loads. -/
def stored (x0 : Vec F S32x40064 .f32) (x1 : Vec F S32x6 .f32) : FVec F S32x1 .f32 :=
  k0_pay1 (k0_pay5 (View.ld x1 rRes) (View.ld x1 rOrg) (View.ld x1 rPt) (View.ld x0 rTbl))
    (k0_pay6 (View.ld x1 rRes) (View.ld x1 rOrg) (View.ld x1 rPt)) (Scalar.ofBits .f32 0xBDCCCCCD#32)

/-- The result window's staging buffer after the body: its one store laid over the buffer. -/
def out0_2 (x0 : Vec F S32x40064 .f32) (x1 : Vec F S32x6 .f32) : Vec F S32x1 .f32 :=
  View.canon [⟨rOut, stored x0 x1⟩]

end Cert.Kernel.Hand

end
-- ==== Proof.Kernel.Body.lean ====
/-
  The frame of the program with the lookup kernel: the proof data of its one pipeline, the kernel body's
  triple, the body obligation, and the run.

  The table window's blocks are 32 rows by 40064 columns of an array 120006 columns wide, which three such
  blocks do not tile; but the window's index map always asks for column block 0, whose 40064 columns lie
  inside the array, so no fetch is ever cut and after every fetch the staging buffer holds the array's
  block and nothing else (`clip0`).  With that the body finds, at every grid point, the table block and
  the tail block in its two input buffers, and leaves in the result's buffer its one store (`out0_2`).
-/
import proofs.«152569_j56307021251002_1_alg».proof.Proof.Gen.Kernel.Frame
import proofs.«152569_j56307021251002_1_alg».proof.Proof.Kernel.Out

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table window is never cut -/

/-- At every grid point the table window's block (rows 32 t .. 32 t + 31, columns 0 .. 40063) lies inside
    the 2048 x 120006 array: no axis of it is cut. -/
theorem clip0 : ∀ (t : Fin cfg0.N) (a : Fin (cfg0.win 0).shape.rank), (cfg0.win 0).clip (cfg0.grid.coords t) a = none :=
  (by decide +kernel : ∀ (t : Fin grid0.N) (a : Fin win0_0.shape.rank), win0_0.clip (grid0.coords t) a = none)

/-! ## The body's triple -/

/-- The one store covers the result's 32 x 1 buffer. -/
theorem cover0_2 (p0 : Vec F S32x1 .f32) (y : S32x1.Idx) :
    ∃ pc ∈ ([⟨rOut, p0⟩] : List (View.Piece (Elt F) S32x1 .f32)), y ∈ pc.1.set :=
  View.cover_of_tiled [⟨rOut, p0⟩] S32x1.size (by rfl) y

set_option maxHeartbeats 1000000 in
/-- The kernel body on whole staging memrefs, the table's at read contents `x0`, the tail's at `x1` and the
    result's at anything, runs to the continuation with the two inputs as they were and the result's buffer at
    `out0_2 x0 x1`: three loads of the tail, the load of the table, a load of the result's buffer that nothing
    uses, and the store. -/
theorem sound_kernel (c : Dev nD) (E : Set ℕ) (i : grid0.Coords) (arg1 : Memref sig .tc .vmem S32x40064 .f32) (harg1 : arg1.IsWhole) (arg2 : Memref sig .tc .vmem S32x6 .f32) (harg2 : arg2.IsWhole) (arg3 : Memref sig .tc .vmem S32x1 .f32) (harg3 : arg3.IsWhole)
    (x0 : Vec F S32x40064 .f32) (x1 : Vec F S32x6 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__sdf_lookup_kernel i arg1 harg1 arg2 harg2 arg3 harg3) K := by
  simp only [cc0__sdf_lookup_kernel_eq_skeleton]; unfold cc0__sdf_lookup_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- What the table window's staging buffer holds at point `t`: the array's block there (the fetch fills the
    whole buffer; the filler is never seen, `clip0`). -/
def tblBuf (c : Dev nD) (t : Fin cfg0.N) : Vec F S32x40064 .f32 :=
  win0_0.fill (grid0.coords t) (fun _ => Scalar.ofBits .f32 0#32) (iblk m c 0 t)

/-- The proof data of the one pipeline on core `c`: the arrays as the region finds them; after the body at
    point `t` the table's buffer at the table block, the tail's at the tail block, the result's at the body's
    store of the two; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tblBuf m c t
    | ⟨1, _⟩ => iblk m c 1 t
    | ⟨2, _⟩ => out0_2 (tblBuf m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = tblBuf m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (tblBuf m c t) (iblk m c 1 t) := by dsimp only [dats]

/-- The table's buffer is fetched at every point, and an uncut fetch leaves nothing of what was there: the body
    finds the table block. -/
theorem before0_0 (c : Dev nD) (t : Fin cfg0.N) (d) : (dats m 0 c).before 0 t d = tblBuf m c t := by
  unfold Dat.before
  rw [if_pos (fetch0_0 t)]
  refine ((dats m 0 c).fetched_of_clip_none 0 t (clip0 t) d (fun _ => Scalar.ofBits .f32 0#32)).trans ?_
  unfold Dat.fetched Dat.blockOf tblBuf iblk
  rw [A_eq]

/-- The tail's buffer holds the tail block at every point. -/
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: its input buffers hold the two blocks, so `sound_kernel` applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (tblBuf m c t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of
    @main terminates, and every final state has every array of the pipeline at what the proof data give it after
    the last write-back and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, nothing faults, the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KernelIdeal.Out.lean ====
/-
  What the kernel body leaves in the result window's staging buffer, as a function of what the two
  input windows' staging buffers hold: its one store, over the whole 32 x 1 buffer, of the body's
  arithmetic applied to three two-column loads of the 32 x 6 tail block and the whole load of the
  32 x 40064 table block.
-/
import proofs.«152569_j56307021251002_1_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.SL.Sem

variable {F : FTy → Type} [FloatOps F]

/-- The body's accesses: columns 0-1, 2-3 and 4-5 of the tail block, the whole table block, the whole result block. -/
abbrev rRes : Rect S32x6 := Rect.unit (s := S32x6) ![0, 0] S32x2.size inb_S32x6_S32x2_0_0
abbrev rOrg : Rect S32x6 := Rect.unit (s := S32x6) ![0, 2] S32x2.size inb_S32x6_S32x2_0_2
abbrev rPt : Rect S32x6 := Rect.unit (s := S32x6) ![0, 4] S32x2.size inb_S32x6_S32x2_0_4
abbrev rTbl : Rect S32x40064 := Rect.unit (s := S32x40064) ![0, 0] S32x40064.size inb_S32x40064_S32x40064_0_0
abbrev rOut : Rect S32x1 := Rect.unit (s := S32x1) ![0, 0] S32x1.size inb_S32x1_S32x1_0_0

/-- The stored value: the body's arithmetic of the four loads. -/
def stored (x0 : Vec F S32x40064 .f32) (x1 : Vec F S32x6 .f32) : FVec F S32x1 .f32 :=
  k0_pay1 (k0_pay5 (View.ld x1 rRes) (View.ld x1 rOrg) (View.ld x1 rPt) (View.ld x0 rTbl))
    (k0_pay6 (View.ld x1 rRes) (View.ld x1 rOrg) (View.ld x1 rPt)) (Scalar.ofBits .f32 0xBDCCCCCD#32)

/-- The result window's staging buffer after the body: its one store laid over the buffer. -/
def out0_2 (x0 : Vec F S32x40064 .f32) (x1 : Vec F S32x6 .f32) : Vec F S32x1 .f32 :=
  View.canon [⟨rOut, stored x0 x1⟩]

end Cert.KernelIdeal.Hand

end
-- ==== Proof.KernelIdeal.Body.lean ====
/-
  The frame of the program with the lookup kernel: the proof data of its one pipeline, the kernel body's
  triple, the body obligation, and the run.

  The table window's blocks are 32 rows by 40064 columns of an array 120006 columns wide, which three such
  blocks do not tile; but the window's index map always asks for column block 0, whose 40064 columns lie
  inside the array, so no fetch is ever cut and after every fetch the staging buffer holds the array's
  block and nothing else (`clip0`).  With that the body finds, at every grid point, the table block and
  the tail block in its two input buffers, and leaves in the result's buffer its one store (`out0_2`).
-/
import proofs.«152569_j56307021251002_1_alg».proof.Proof.Gen.KernelIdeal.Frame
import proofs.«152569_j56307021251002_1_alg».proof.Proof.KernelIdeal.Out

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table window is never cut -/

/-- At every grid point the table window's block (rows 32 t .. 32 t + 31, columns 0 .. 40063) lies inside
    the 2048 x 120006 array: no axis of it is cut. -/
theorem clip0 : ∀ (t : Fin cfg0.N) (a : Fin (cfg0.win 0).shape.rank), (cfg0.win 0).clip (cfg0.grid.coords t) a = none :=
  (by decide +kernel : ∀ (t : Fin grid0.N) (a : Fin win0_0.shape.rank), win0_0.clip (grid0.coords t) a = none)

/-! ## The body's triple -/

/-- The one store covers the result's 32 x 1 buffer. -/
theorem cover0_2 (p0 : Vec F S32x1 .f32) (y : S32x1.Idx) :
    ∃ pc ∈ ([⟨rOut, p0⟩] : List (View.Piece (Elt F) S32x1 .f32)), y ∈ pc.1.set :=
  View.cover_of_tiled [⟨rOut, p0⟩] S32x1.size (by rfl) y

set_option maxHeartbeats 1000000 in
/-- The kernel body on whole staging memrefs, the table's at read contents `x0`, the tail's at `x1` and the
    result's at anything, runs to the continuation with the two inputs as they were and the result's buffer at
    `out0_2 x0 x1`: three loads of the tail, the load of the table, a load of the result's buffer that nothing
    uses, and the store. -/
theorem sound_kernel (c : Dev nD) (E : Set ℕ) (i : grid0.Coords) (arg1 : Memref sig .tc .vmem S32x40064 .f32) (harg1 : arg1.IsWhole) (arg2 : Memref sig .tc .vmem S32x6 .f32) (harg2 : arg2.IsWhole) (arg3 : Memref sig .tc .vmem S32x1 .f32) (harg3 : arg3.IsWhole)
    (x0 : Vec F S32x40064 .f32) (x1 : Vec F S32x6 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__sdf_lookup_kernel i arg1 harg1 arg2 harg2 arg3 harg3) K := by
  simp only [cc0__sdf_lookup_kernel_eq_skeleton]; unfold cc0__sdf_lookup_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- What the table window's staging buffer holds at point `t`: the array's block there (the fetch fills the
    whole buffer; the filler is never seen, `clip0`). -/
def tblBuf (c : Dev nD) (t : Fin cfg0.N) : Vec F S32x40064 .f32 :=
  win0_0.fill (grid0.coords t) (fun _ => Scalar.ofBits .f32 0#32) (iblk m c 0 t)

/-- The proof data of the one pipeline on core `c`: the arrays as the region finds them; after the body at
    point `t` the table's buffer at the table block, the tail's at the tail block, the result's at the body's
    store of the two; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tblBuf m c t
    | ⟨1, _⟩ => iblk m c 1 t
    | ⟨2, _⟩ => out0_2 (tblBuf m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = tblBuf m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (tblBuf m c t) (iblk m c 1 t) := by dsimp only [dats]

/-- The table's buffer is fetched at every point, and an uncut fetch leaves nothing of what was there: the body
    finds the table block. -/
theorem before0_0 (c : Dev nD) (t : Fin cfg0.N) (d) : (dats m 0 c).before 0 t d = tblBuf m c t := by
  unfold Dat.before
  rw [if_pos (fetch0_0 t)]
  refine ((dats m 0 c).fetched_of_clip_none 0 t (clip0 t) d (fun _ => Scalar.ofBits .f32 0#32)).trans ?_
  unfold Dat.fetched Dat.blockOf tblBuf iblk
  rw [A_eq]

/-- The tail's buffer holds the tail block at every point. -/
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: its input buffers hold the two blocks, so `sound_kernel` applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (tblBuf m c t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of
    @main terminates, and every final state has every array of the pipeline at what the proof data give it after
    the last write-back and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end, nothing faults, the argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Spec.lean ====
/-
  The lookup both programs compute, written once, for any float instance.
  A row of the argument array holds a 200 x 200 table of distances in its first 40000 words and, in
  its last six words, a resolution, an origin and a query point, two coordinates each.  A coordinate's
  grid cell is the integer part of  point / resolution + origin ; the two cells give the flat table
  position  cell0 * 200 + cell1 , clamped into 0 .. 39999; the row's result is the table's word at
  that position, or the constant -0.1 when either cell lies outside 0 .. 199.
-/
import Idealize.ShloMosaic.PureOps.Ideal
import Idealize.ShloMosaic.Lib.ValueIdx

noncomputable section

namespace Cert.Sdf

open Idealize.ShloMosaic Idealize.ShloMosaic.ValueIdx

variable {F : FTy → Type} [FloatOps F]

/-- The grid cell of one coordinate: the integer part (toward zero) of  pt / res + org . -/
def cell (res org pt : F .f32) : BitVec 32 :=
  FloatOps.fptosi 32 (FloatOps.addf (FloatOps.divf pt res) org)

/-- The flat table position of the two cells, clamped into the table: min 39999 (max 0 (c0 * 200 + c1)),
    in two's-complement 32-bit arithmetic and signed order. -/
def flat (c0 c1 : BitVec 32) : BitVec 32 :=
  IntOp.minsi 39999#32 (IntOp.maxsi 0#32 (IntOp.addi (IntOp.muli c0 200#32) c1))

/-- Whether either cell lies outside 0 .. 199 (signed). -/
def outside (c0 c1 : BitVec 32) : BitVec 1 :=
  IntOp.ori (IntOp.ori (IntOp.ori (IntOp.cmpi .slt c0 0#32) (IntOp.cmpi .sge c0 200#32)) (IntOp.cmpi .slt c1 0#32))
    (IntOp.cmpi .sge c1 200#32)

/-- Signed  max 0 v  is never negative and signed  min 39999 w  never exceeds 39999: read as a natural
    number the clamped position is below 40000, whatever the cells are. -/
theorem flat_lt (c0 c1 : BitVec 32) : (flat c0 c1).toNat < 40000 := by
  unfold flat IntOp.minsi IntOp.maxsi
  generalize IntOp.addi (IntOp.muli c0 200#32) c1 = v
  simp only [BitVec.slt, BitVec.toInt_eq_toNat_cond]
  have hv := v.isLt
  split_ifs <;> simp_all <;> omega

/-- So in the signed reading too the clamped position is its natural-number value: it is not negative. -/
theorem flat_toInt (c0 c1 : BitVec 32) : (flat c0 c1).toInt = ((flat c0 c1).toNat : Int) := by
  have h := flat_lt c0 c1
  rw [BitVec.toInt_eq_toNat_cond]
  split_ifs with h2
  · rfl
  · omega

/-- One row's result from its six last words `t` (resolution 0 1, origin 2 3, point 4 5) and its table. -/
def rowResult (t : Fin 6 → F .f32) (tbl : Fin 40000 → F .f32) : F .f32 :=
  Scalar.select (outside (cell (t 0) (t 2) (t 4)) (cell (t 1) (t 3) (t 5))) (FloatOps.ofBits .f32 0xBDCCCCCD#32)
    (tbl ⟨(flat (cell (t 0) (t 2) (t 4)) (cell (t 1) (t 3) (t 5))).toNat, flat_lt _ _⟩)

/-- Row `r`'s last six words of the argument array. -/
def tailOf (x : (⟨2, ![2048, 120006]⟩ : Shape).Idx → F .f32) (r : Fin 2048) : Fin 6 → F .f32 :=
  fun k => x (ix2 r ⟨120000 + k.val, by have := k.isLt; omega⟩)

/-- Row `r`'s table: its first 40000 words. -/
def tableOf (x : (⟨2, ![2048, 120006]⟩ : Shape).Idx → F .f32) (r : Fin 2048) : Fin 40000 → F .f32 :=
  fun k => x (ix2 r ⟨k.val, by have := k.isLt; omega⟩)

/-- The whole result, a column of 2048 words. -/
def G (x : (⟨2, ![2048, 120006]⟩ : Shape).Idx → F .f32) : (⟨2, ![2048, 1]⟩ : Shape).Idx → F .f32 :=
  fun j => rowResult (tailOf x (j 0)) (tableOf x (j 0))

end Cert.Sdf

end
-- ==== Proof.Payload.lean ====
/-
  The kernel body's stored column, read at a row, is the row's lookup.

  Row p of the stored 32 x 1 column depends on row p of the two input blocks only: the six tail words give the
  two cells, the cells give the clamped table position and the outside flag; the masked lane sum over the 40064
  columns of the table block has the one nonzero term at the clamped position (which is below 40000, so the 64
  extra columns the block carries never match), and a sum of one word and zeros is that word.
-/
import proofs.«152569_j56307021251002_1_alg».proof.Proof.KernelIdeal.Out
import proofs.«152569_j56307021251002_1_alg».proof.Proof.Spec
import Idealize.ShloMosaic.PureOps.Ideal.Laws
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.ValueIdx Idealize.SL.Sem

/-- The offsets of a whole-buffer access are all zero. -/
theorem zero_offsets : (![0, 0] : Fin 2 → Nat) = fun _ => 0 := by
  funext a; fin_cases a <;> rfl

/-- The one store covers the whole result buffer, so the buffer holds what was stored. -/
theorem out0_2_eq_stored (x0 : Vec Ideal S32x40064 .f32) (x1 : Vec Ideal S32x6 .f32) :
    out0_2 (F := Ideal) x0 x1 = stored x0 x1 := by
  unfold out0_2
  exact View.canon_unit_zero zero_offsets _ _

/-- The whole-table load reads the table block. -/
theorem ldTbl_eq (x0 : Vec Ideal S32x40064 .f32) : View.ld x0 rTbl = x0 :=
  View.ld_unit_zero (S := S32x40064) zero_offsets _ _

/-- Columns 0-1 of the tail block, read at row `p` and column `j`. -/
theorem ldRes_apply (x1 : Vec Ideal S32x6 .f32) (p : Fin 32) (j : Fin 2) :
    View.ld x1 rRes (ix2 p j) = x1 (ix2 p ⟨0 + j.val, by omega⟩) := by
  show x1 (rRes.idx (ix2 p j)) = _
  refine congrArg x1 (funext fun a => Fin.ext ?_)
  match a with
  | ⟨0, _⟩ => show 0 + 1 * p.val = p.val; omega
  | ⟨1, _⟩ => show 0 + 1 * j.val = 0 + j.val; omega

/-- Columns 2-3 of the tail block, read at row `p` and column `j`. -/
theorem ldOrg_apply (x1 : Vec Ideal S32x6 .f32) (p : Fin 32) (j : Fin 2) :
    View.ld x1 rOrg (ix2 p j) = x1 (ix2 p ⟨2 + j.val, by omega⟩) := by
  show x1 (rOrg.idx (ix2 p j)) = _
  refine congrArg x1 (funext fun a => Fin.ext ?_)
  match a with
  | ⟨0, _⟩ => show 0 + 1 * p.val = p.val; omega
  | ⟨1, _⟩ => show 2 + 1 * j.val = 2 + j.val; omega

/-- Columns 4-5 of the tail block, read at row `p` and column `j`. -/
theorem ldPt_apply (x1 : Vec Ideal S32x6 .f32) (p : Fin 32) (j : Fin 2) :
    View.ld x1 rPt (ix2 p j) = x1 (ix2 p ⟨4 + j.val, by omega⟩) := by
  show x1 (rPt.idx (ix2 p j)) = _
  refine congrArg x1 (funext fun a => Fin.ext ?_)
  match a with
  | ⟨0, _⟩ => show 0 + 1 * p.val = p.val; omega
  | ⟨1, _⟩ => show 4 + 1 * j.val = 4 + j.val; omega

/-- The two cells of a row: the integer part of point / resolution + origin, coordinate by coordinate. -/
theorem cells_apply (v0 v2 v4 : Vec Ideal S32x2 .f32) (p : Fin 32) (j : Fin 2) :
    k0_pay2 v0 v2 v4 (ix2 p j) = Cert.Sdf.cell (F := Ideal) (v0 (ix2 p j)) (v2 (ix2 p j)) (v4 (ix2 p j)) := by
  unfold k0_pay2
  rw [shapeCast_self, shapeCast_self, shapeCast_self]
  rfl

/-- The first cell of row `p`, as the rank-1 vector the body carries. -/
theorem cell0_apply (v0 v2 v4 : Vec Ideal S32x2 .f32) (p : Fin 32) :
    k0_pay3 v0 v2 v4 (ix1 p) = k0_pay2 v0 v2 v4 (ix2 p (0 : Fin 2)) := by
  unfold k0_pay3
  refine (shapeCast_apply _ shapeCasts_S32x1_S32 (ix1 p) (ix2 p (0 : Fin 1)) ?_).trans ?_
  · rw [Shape.rowMajor_val_one, Shape.rowMajor_val_two]
    show p.val * 1 + 0 = p.val
    omega
  · exact slice2_axis1_apply 0 _ slices_S32x2_o0_0_S32x1 p (0 : Fin 1) (0 : Fin 2) rfl

/-- The second cell of row `p`. -/
theorem cell1_apply (v0 v2 v4 : Vec Ideal S32x2 .f32) (p : Fin 32) :
    k0_pay4 v0 v2 v4 (ix1 p) = k0_pay2 v0 v2 v4 (ix2 p (1 : Fin 2)) := by
  unfold k0_pay4
  refine (shapeCast_apply _ shapeCasts_S32x1_S32 (ix1 p) (ix2 p (0 : Fin 1)) ?_).trans ?_
  · rw [Shape.rowMajor_val_one, Shape.rowMajor_val_two]
    show p.val * 1 + 0 = p.val
    omega
  · exact slice2_axis1_apply 1 _ slices_S32x2_o0_1_S32x1 p (0 : Fin 1) (1 : Fin 2) rfl

/-- The outside flag of row `p`: the four signed range tests of its two cells, joined. -/
theorem flag_apply (v0 v2 v4 : Vec Ideal S32x2 .f32) (p : Fin 32) (q : Fin 1) :
    k0_pay6 v0 v2 v4 (ix2 p q)
      = Cert.Sdf.outside (k0_pay3 v0 v2 v4 (ix1 p)) (k0_pay4 v0 v2 v4 (ix1 p)) := by
  unfold k0_pay6
  refine (shapeCast_apply _ shapeCasts_S32_S32x1 (ix2 p q) (ix1 p) ?_).trans rfl
  rw [Shape.rowMajor_val_one, Shape.rowMajor_val_two]
  show p.val = p.val * 1 + q.val
  omega

/-- A column number below 2^32 equals a 32-bit word exactly when it is the word's value. -/
theorem cmpi_eq_col (k : Nat) (hk : k < 40064) (pos : BitVec 32) :
    IntOp.cmpi .eq (BitVec.ofNat 32 k) pos = if k = pos.toNat then 1#1 else 0#1 := by
  unfold IntOp.cmpi
  by_cases h : k = pos.toNat
  · subst h
    rw [if_pos rfl]
    simp
  · rw [if_neg h]
    have hne : BitVec.ofNat 32 k ≠ pos := by
      intro e
      apply h
      rw [← e, BitVec.toNat_ofNat]
      exact (Nat.mod_eq_of_lt (by omega)).symm
    rw [show (BitVec.ofNat 32 k == pos) = false from beq_false_of_ne hne]
    rfl

/-- A row's sum of (the table word where the column is the position, zero elsewhere) is the table word at the
    position, when the position is a column of the block. -/
theorem masked_sum (x0 : Vec Ideal S32x40064 .f32) (p : Fin 32) (pos : BitVec 32) (hpos : pos.toNat < 40064) :
    (∑ k : Fin 40064, Scalar.select (IntOp.cmpi .eq (BitVec.ofNat 32 k.val) pos) (x0 (ix2 p k))
        (Ideal.ofBits .f32 0x00000000#32) : EReal)
      = x0 (ix2 p ⟨pos.toNat, hpos⟩) := by
  rw [Finset.sum_eq_single (⟨pos.toNat, hpos⟩ : Fin 40064)]
  · rw [cmpi_eq_col _ hpos, if_pos rfl, select_one]
  · intro k _ hk
    have hne : ¬ k.val = pos.toNat := fun e => hk (Fin.ext e)
    rw [cmpi_eq_col _ k.isLt, if_neg hne, select_zero, Ideal.ofBits_zero_f32]
  · intro h
    exact absurd (Finset.mem_univ _) h

/-- The source index of the lane sum over a row: row `p`, column `k`. -/
theorem lift_row (p : Fin 32) (k : Fin 40064) :
    reduces_S32x40064_S32.lift (ix1 p) k = ix2 p k := by
  funext c
  match c with
  | ⟨0, _⟩ => rfl
  | ⟨1, _⟩ => rfl

/-- The masked table at row `p` and column `k`: the table word where the column number is row `p`'s position,
    the zero word elsewhere. -/
theorem masked_apply (posv : IVec S32 32) (x0 : Vec Ideal S32x40064 .f32) (p : Fin 32) (k : Fin 40064) :
    select (cmpi .eq (iota .tc S32x40064 32 [1] iota_S32x40064_d1_w32)
        (broadcastTo S32x40064 (shapeCast S32x1 posv shapeCasts_S32_S32x1) broadcasts_S32x1_S32x40064))
      x0 (broadcast S32x40064 (Scalar.ofBits (F := Ideal) .f32 0x00000000#32)) (ix2 p k)
      = Scalar.select (IntOp.cmpi .eq (BitVec.ofNat 32 k.val) (posv (ix1 p))) (x0 (ix2 p k))
          (Ideal.ofBits .f32 0x00000000#32) := by
  have e1 : iota .tc S32x40064 32 [1] iota_S32x40064_d1_w32 (ix2 p k) = BitVec.ofNat 32 k.val :=
    iota_single_apply .tc S32x40064 32 1 iota_S32x40064_d1_w32 (ix2 p k)
  have e2 : broadcastTo S32x40064 (shapeCast S32x1 posv shapeCasts_S32_S32x1) broadcasts_S32x1_S32x40064 (ix2 p k)
      = posv (ix1 p) := by
    refine (broadcastTo_apply _ broadcasts_S32x1_S32x40064 (ix2 p k) (ix2 p (0 : Fin 1)) (fun a => ?_)).trans ?_
    · match a with
      | ⟨0, _⟩ => rfl
      | ⟨1, _⟩ => rfl
    · refine shapeCast_apply _ shapeCasts_S32_S32x1 (ix2 p (0 : Fin 1)) (ix1 p) ?_
      rw [Shape.rowMajor_val_one, Shape.rowMajor_val_two]
      show p.val = p.val * 1 + 0
      omega
  show Scalar.select (IntOp.cmpi .eq (iota .tc S32x40064 32 [1] iota_S32x40064_d1_w32 (ix2 p k))
      (broadcastTo S32x40064 (shapeCast S32x1 posv shapeCasts_S32_S32x1) broadcasts_S32x1_S32x40064 (ix2 p k)))
      (x0 (ix2 p k)) _ = _
  rw [e1, e2]
  rfl

/-- The looked-up word of row `p`: the lane sum of the masked table is the table word at the row's clamped
    position, which is below 40000 and so a column of the block. -/
theorem lookup_apply (v0 v2 v4 : Vec Ideal S32x2 .f32) (x0 : Vec Ideal S32x40064 .f32) (p : Fin 32) (q : Fin 1)
    (c0 c1 : BitVec 32) (h0 : k0_pay3 v0 v2 v4 (ix1 p) = c0) (h1 : k0_pay4 v0 v2 v4 (ix1 p) = c1) :
    k0_pay5 v0 v2 v4 x0 (ix2 p q)
      = x0 (ix2 p ⟨(Cert.Sdf.flat c0 c1).toNat, by have := Cert.Sdf.flat_lt c0 c1; omega⟩) := by
  subst h0 h1
  have hpos := Cert.Sdf.flat_lt (k0_pay3 v0 v2 v4 (ix1 p)) (k0_pay4 v0 v2 v4 (ix1 p))
  unfold k0_pay5
  refine (shapeCast_apply _ shapeCasts_S32_S32x1 (ix2 p q) (ix1 p) ?_).trans ?_
  · rw [Shape.rowMajor_val_one, Shape.rowMajor_val_two]
    show p.val = p.val * 1 + q.val
    omega
  · refine (Ideal.multiReduction_add_single _ 0x00000000#32 reduces_S32x40064_S32 (.inl rfl) rfl (ix1 p)).trans ?_
    refine Eq.trans (Finset.sum_congr rfl (fun (k : Fin 40064) _ => ?_))
      (masked_sum x0 p (Cert.Sdf.flat (k0_pay3 v0 v2 v4 (ix1 p)) (k0_pay4 v0 v2 v4 (ix1 p))) (by omega))
    exact (congrArg _ (lift_row p k)).trans (masked_apply _ x0 p k)

/-- Row `p`'s first cell, from the row's tail words 0, 2 and 4. -/
theorem row_cell0 (x1 : Vec Ideal S32x6 .f32) (p : Fin 32) :
    k0_pay3 (View.ld x1 rRes) (View.ld x1 rOrg) (View.ld x1 rPt) (ix1 p)
      = Cert.Sdf.cell (F := Ideal) (x1 (ix2 p (0 : Fin 6))) (x1 (ix2 p (2 : Fin 6))) (x1 (ix2 p (4 : Fin 6))) := by
  rw [cell0_apply, cells_apply, ldRes_apply, ldOrg_apply, ldPt_apply]
  rfl

/-- Row `p`'s second cell, from the row's tail words 1, 3 and 5. -/
theorem row_cell1 (x1 : Vec Ideal S32x6 .f32) (p : Fin 32) :
    k0_pay4 (View.ld x1 rRes) (View.ld x1 rOrg) (View.ld x1 rPt) (ix1 p)
      = Cert.Sdf.cell (F := Ideal) (x1 (ix2 p (1 : Fin 6))) (x1 (ix2 p (3 : Fin 6))) (x1 (ix2 p (5 : Fin 6))) := by
  rw [cell1_apply, cells_apply, ldRes_apply, ldOrg_apply, ldPt_apply]
  rfl

/-- Row `p` of what the body stores, at the ideal instance, is `Sdf.rowResult` of row `p`'s six tail words and
    row `p`'s first 40000 table words. -/
theorem out0_2_row (x0 : Vec Ideal S32x40064 .f32) (x1 : Vec Ideal S32x6 .f32) (p : Fin 32) (q : Fin 1) :
    out0_2 (F := Ideal) x0 x1 (ix2 p q)
      = Cert.Sdf.rowResult (F := Ideal) (fun k => x1 (ix2 p k))
          (fun k => x0 (ix2 p ⟨k.val, by have := k.isLt; omega⟩)) := by
  rw [out0_2_eq_stored]
  unfold stored k0_pay1
  rw [ldTbl_eq]
  show Scalar.select (k0_pay6 (View.ld x1 rRes) (View.ld x1 rOrg) (View.ld x1 rPt) (ix2 p q))
      (Scalar.ofBits (F := Ideal) .f32 0xBDCCCCCD#32)
      (k0_pay5 (View.ld x1 rRes) (View.ld x1 rOrg) (View.ld x1 rPt) x0 (ix2 p q)) = _
  rw [flag_apply, lookup_apply _ _ _ x0 p q _ _ (row_cell0 x1 p) (row_cell1 x1 p), row_cell0, row_cell1]
  rfl

end Cert.KernelIdeal.Hand

end
-- ==== Proof.KernelValue.lean ====
/-
  The kernel program's result array, at the ideal instance, is the lookup `Sdf.G` of the argument array.

  Grid point t writes back rows 32 t .. 32 t + 31 of the 2048 x 1 result.  Row p of that block is the body's
  stored row p (`out0_2_row`): the row lookup of row p of the tail block and row p of the table block.  The
  tail block at point t is rows 32 t .. of the 2048 x 6 array the host sliced out of the argument's last six
  columns, and the table block is rows 32 t .. and columns 0 .. 40063 of the argument itself: so the row is
  the lookup of row 32 t + p of the argument.  The 64 blocks tile the 2048 rows.
-/
import proofs.«152569_j56307021251002_1_alg».proof.Proof.KernelIdeal.Body
import proofs.«152569_j56307021251002_1_alg».proof.Proof.Payload
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The printed index maps, decided over the grid: at point t every window's row-block index is t and its
    column-block index is 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem idx_onto : ∀ q0 : Fin 64, ∃ t : Fin cfg0.N, t.val = q0.val :=
  (by decide +kernel : ∀ q0 : Fin 64, ∃ t : Fin grid0.N, t.val = q0.val)

/-- Row p of block t as a row of the arrays. -/
abbrev rowAt (t : Fin cfg0.N) (p : Fin 32) : Fin 2048 :=
  ⟨32 * t.val + p.val, by have := t.isLt; have := p.isLt; have h : cfg0.N = 64 := N_0; omega⟩

/-- The tail array the region finds is the host's slice of the argument's last six columns. -/
theorem V_tail (c : Dev nD) : (V m c main_v0 : S2048x6.Idx → Elt Ideal .f32)
    = extractStridedSlice S2048x6 ![0, 120000] (m ((c : Thread nD τ).loc main_arg0)) slices_S2048x120006_S2048x6_0_120000 := by
  dsimp only [V, hostOps0]; after_results

/-- The tail block at point t, row p, word k is the argument's row 32 t + p, column 120000 + k. -/
theorem tail_apply (c : Dev nD) (t : Fin cfg0.N) (p : Fin 32) (k : Fin 6) :
    iblk m c 1 t (ix2 p k)
      = m ((c : Thread nD τ).loc main_arg0) (ix2 (rowAt t p) ⟨120000 + k.val, by have := k.isLt; omega⟩) := by
  obtain ⟨-, -, e2, e3, -, -⟩ := idx_facts t
  show V m c main_v0 (((cfg0.win 1).blk t).view.emb (ix2 p k)) = _
  rw [V_tail]
  refine extractStridedSlice_apply _ _ _ _ _ fun a => ?_
  match a with
  | ⟨0, _⟩ => show 32 * t.val + p.val = 0 + (win0_1.index t (0 : Fin 2) * 32 + 1 * p.val); omega
  | ⟨1, _⟩ => show 120000 + k.val = 120000 + (win0_1.index t (1 : Fin 2) * 6 + 1 * k.val); omega

/-- The table buffer at point t, row p, column k is the argument's row 32 t + p, column k. -/
theorem table_apply (c : Dev nD) (t : Fin cfg0.N) (p : Fin 32) (k : Fin 40064) :
    tblBuf m c t (ix2 p k)
      = m ((c : Thread nD τ).loc main_arg0) (ix2 (rowAt t p) ⟨k.val, by have := k.isLt; omega⟩) := by
  obtain ⟨e0, e1, -, -, -, -⟩ := idx_facts t
  have hm : win0_0.moved (grid0.coords t) (ix2 p k) = true :=
    (win0_0.moved_iff _ _).mpr fun a => by
      have hlt := (ix2 p k a).isLt
      have hc : win0_0.clip (grid0.coords t) a = none := clip0 t a
      show (ix2 p k a).val < (win0_0.clip (grid0.coords t) a).extent (win0_0.size a)
      rw [hc]; exact hlt
  unfold tblBuf Window.fill
  rw [dif_pos hm]
  show V m c main_arg0 (((cfg0.win 0).blk t).view.emb _) = _
  rw [V_main_arg0]
  refine congrArg _ (funext fun a => Fin.ext ?_)
  match a with
  | ⟨0, _⟩ => show win0_0.index t (0 : Fin 2) * 32 + 1 * p.val = 32 * t.val + p.val; omega
  | ⟨1, _⟩ => show win0_0.index t (1 : Fin 2) * 40064 + 1 * k.val = k.val; omega

/-- What point t writes back is block t of the lookup of the argument array. -/
theorem flushed_eq (c : Dev nD) (t : Fin cfg0.N) :
    (dats m 0 c).flushed 2 t = ((cfg0.win 2).blk t).view.read (Elt Ideal) (Cert.Sdf.G (F := Ideal) (m ((c : Thread nD τ).loc main_arg0))) := by
  show (cfg0.win 2).cut (grid0.coords t) ((dats m 0 c).after 2 t) = _
  rw [after0_2]
  obtain ⟨-, -, -, -, e4, e5⟩ := idx_facts t
  funext j
  obtain ⟨p, q, rfl⟩ : ∃ (p : Fin 32) (q : Fin 1), j = ix2 p q := ⟨j 0, j 1, eq_ix2 j⟩
  show out0_2 (tblBuf m c t) (iblk m c 1 t) (ix2 p q)
    = Cert.Sdf.G (F := Ideal) (m ((c : Thread nD τ).loc main_arg0)) (((cfg0.win 2).blk t).view.emb (ix2 p q))
  rw [out0_2_row]
  have hT : (fun k : Fin 6 => iblk m c 1 t (ix2 p k))
      = Cert.Sdf.tailOf (F := Ideal) (m ((c : Thread nD τ).loc main_arg0)) (rowAt t p) :=
    funext fun k => tail_apply m c t p k
  have hB : (fun k : Fin 40000 => tblBuf m c t (ix2 p (⟨k.val, by have := k.isLt; omega⟩ : Fin 40064)))
      = Cert.Sdf.tableOf (F := Ideal) (m ((c : Thread nD τ).loc main_arg0)) (rowAt t p) :=
    funext fun k => table_apply m c t p ⟨k.val, by have := k.isLt; omega⟩
  refine (congrArg₂ (Cert.Sdf.rowResult (F := Ideal)) hT hB).trans ?_
  have hr : (((cfg0.win 2).blk t).view.emb (ix2 p q)) 0 = rowAt t p :=
    Fin.ext (by show win0_2.index t (0 : Fin 2) * 32 + 1 * p.val = 32 * t.val + p.val; omega)
  show Cert.Sdf.rowResult (F := Ideal) (Cert.Sdf.tailOf _ (rowAt t p)) (Cert.Sdf.tableOf _ (rowAt t p))
    = Cert.Sdf.rowResult (F := Ideal) (Cert.Sdf.tailOf _ ((((cfg0.win 2).blk t).view.emb (ix2 p q)) 0))
        (Cert.Sdf.tableOf _ ((((cfg0.win 2).blk t).view.emb (ix2 p q)) 0))
  rw [hr]

/-- An index of the result is in point t's block iff its row is among rows 32 t .. 32 t + 31. -/
theorem mem_blk (t : Fin cfg0.N) (i : S2048x1.Idx) :
    i ∈ ((cfg0.win 2).blk t).view.set ↔ ∀ a : Fin 2, win0_2.index t a * S32x1.size a ≤ (i a).val ∧ (i a).val < win0_2.index t a * S32x1.size a + S32x1.size a := by
  show i ∈ ((View.whole main_v1).slice (win0_2.rect t)).set ↔ _
  rw [View.set_slice_whole, Rect.mem_set_unit]
  exact Iff.rfl

/-- The 64 blocks cover the 2048 rows: row r is in block r / 32. -/
theorem cover (i : S2048x1.Idx) : ∃ t : Fin cfg0.N, (cfg0.win 2).flush t = true ∧ i ∈ ((cfg0.win 2).blk t).view.set := by
  have hi0 : (i 0).val < 2048 := (i 0).isLt
  have hi1 : (i 1).val < 1 := (i 1).isLt
  obtain ⟨t, ht⟩ := idx_onto ⟨(i 0).val / 32, by omega⟩
  have ht' : t.val = (i 0).val / 32 := ht
  obtain ⟨-, -, -, -, e4, e5⟩ := idx_facts t
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 1 ≤ (i 1).val ∧ (i 1).val < win0_2.index t (1 : Fin 2) * 1 + 1; omega

/-- The result array after the run is the lookup of the argument array. -/
theorem final (c : Dev nD) :
    (dats m 0 c).arrAt 2 cfg0.N = Cert.Sdf.G (F := Ideal) (m ((c : Thread nD τ).loc main_arg0)) :=
  (dats m 0 c).arrAt_eq_of_cover 2 _ (fun t _ => flushed_eq m c t) (cover)

/-- The run, read: every weakly fair execution ends with the result array at the lookup of the argument and
    the argument unchanged. -/
theorem value_run : θ_run defs (onTc (τ := τ) (main (F := Ideal))) ⟨m, fun _ => 0, ρ⟩ fun r => ∀ c : Dev nD,
      r.2.mem ((c.tc : Thread nD τ).loc main_v1) = Cert.Sdf.G (F := Ideal) (m ((c.tc : Thread nD τ).loc main_arg0))
      ∧ r.2.mem ((c.tc : Thread nD τ).loc main_arg0) = m ((c.tc : Thread nD τ).loc main_arg0) :=
  (θ_run defs _ _).mono (fun r h c => ⟨((h c).1 2).trans (final m c),
      ((h c).1 0).trans (((dats m 0 c).arrAt_in 0 rfl _).trans ((A_eq m c 0).trans (V_main_arg0 m c)))⟩)
    (run_main m ρ)

end Cert.KernelIdeal.Hand

end
-- ==== Proof.RefBridge.lean ====
/-
  The reference program's result, read at the ideal instance, is the lookup `Sdf.G` of the argument array.

  The reference slices the table and the three pairs of tail words out of the argument, forms the cells, the
  clamped position and the outside flag with the same operations as the specification, and gathers the table
  word with `take_along_axis`: that function first wraps a negative position by 40000 (never taken: the clamped
  position is not negative), checks the position against 0 .. 39999 (always true) to choose between the gathered
  word and a fill value (never the fill), and gathers through an index clamp that changes nothing on 0 .. 39999.
-/
import proofs.«152569_j56307021251002_1_alg».proof.Proof.Gen.ReferenceIdeal.Run
import proofs.«152569_j56307021251002_1_alg».proof.Proof.Gen.ReferenceIdeal.Read
import proofs.«152569_j56307021251002_1_alg».proof.Proof.Spec
import Idealize.ShloMosaic.Lib.ValueIdx
import Idealize.ShloMosaic.Lib.Pipeline.Value
import Idealize.ShloMosaic.Lib.StableHlo.Predicate
import Idealize.ShloMosaic.PureOps.Reduce

noncomputable section

namespace Cert.RefBridge

open Cert.ReferenceIdeal Cert.ReferenceIdeal.Gen Cert.ReferenceIdeal.Read
open Idealize.ShloMosaic Idealize.ShloMosaic.ValueIdx Idealize.SL.Sem

/-! ## Words below 40000

A 32-bit word whose unsigned value is below 40000 is not negative in the signed reading, so it compares with
0 and with 39999 as its value does, and clamping its signed value into 0 .. 39999 returns its value. -/

/-- Such a word is not below zero. -/
theorem slt_zero_of_small (p : BitVec 32) (hp : p.toNat < 40000) : IntOp.cmpi .slt p 0#32 = 0#1 := by
  refine eq_zero_of_ne_one fun h => ?_
  have := (StableHlo.Predicate.slt_iff_toNat (a := p) (b := 0#32) (by omega) (by decide)).1 h
  simp at this

/-- Such a word is at least zero. -/
theorem sge_zero_of_small (p : BitVec 32) (hp : p.toNat < 40000) : IntOp.cmpi .sge p 0#32 = 1#1 :=
  (StableHlo.Predicate.sge_iff_toNat (a := p) (b := 0#32) (by omega) (by decide)).2 (by simp)

/-- Such a word is at most 39999. -/
theorem sle_last_of_small (p : BitVec 32) (hp : p.toNat < 40000) : IntOp.cmpi .sle p 39999#32 = 1#1 :=
  (StableHlo.Predicate.sle_iff_toNat (a := p) (b := 39999#32) (by omega) (by decide)).2
    (by show p.toNat ≤ (39999#32 : BitVec 32).toNat; simp; omega)

/-- The signed value of such a word, clamped into 0 .. 39999, is its unsigned value. -/
theorem clamp_of_small (p : BitVec 32) (hp : p.toNat < 40000) : min p.toInt.toNat (40000 - 1) = p.toNat := by
  rw [StableHlo.Predicate.toInt_eq_toNat_of_lt (a := p) (by omega), Int.toNat_natCast]
  omega

/-! ## A conjunction of ones -/

/-- A left fold by `and` from 1 over a list whose every term is 1 stays at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- So a reduction by `and` from 1 of an array of ones is 1 at every result index, whichever axes it folds. -/
theorem reduce_andi_ones {s t u : Shape} {axes : List (Fin s.rank)} (y : s.Idx → BitVec 1) (init : u.Idx → BitVec 1)
    (h : s.ReducesTo axes t) (hu : 0 < u.numel) (hy : ∀ i, y i = 1#1) (hinit : init (Shape.Idx.first hu) = 1#1)
    (j : t.Idx) : Host.reduce IntOp.andi y init h hu j = 1#1 := by
  rw [Host.reduce_eq_foldl, hinit]
  exact foldl_andi_ones y hy _

/-! ## The gather, read at an index

Its operand's axis 0 is a batching axis paired with the start indices' axis 0, and its axis 1 is collapsed and is
the one the start index addresses: result (r, q) reads row r of the operand at the start index found at (r, q, 0),
read signed and clamped into 0 .. 39999. -/

theorem gather_row {α : Type} {w : Nat} (y : S2048x40000.Idx → α) (idx : IVec S2048x1x1 w) (r : Fin 2048) (q : Fin 1) :
    Host.gather gather_S2048x40000_S2048x1x1_S2048x1_n_1_0_0_1_2_11 y idx (ix2 r q)
      = y (ix2 r ⟨min (idx (ix3 r q 0)).toInt.toNat (40000 - 1), by omega⟩) := by
  unfold Host.gather
  congr 1
  funext a
  refine Fin.ext ?_
  match a with
  | ⟨0, _⟩ =>
    -- the batching axis: no start, no offset, the result's row
    show gather_S2048x40000_S2048x1x1_S2048x1_n_1_0_0_1_2_11.start (ix2 r q) idx 0
        + gather_S2048x40000_S2048x1x1_S2048x1_n_1_0_0_1_2_11.batchCoord (ix2 r q) 0
        + gather_S2048x40000_S2048x1x1_S2048x1_n_1_0_0_1_2_11.offCoord (ix2 r q) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S2048x40000_S2048x1x1_S2048x1_n_1_0_0_1_2_11.operandBatchingDims from
      List.mem_singleton.mpr rfl)]
    rfl
  | ⟨1, _⟩ =>
    -- the collapsed axis: the clamped start alone
    show gather_S2048x40000_S2048x1x1_S2048x1_n_1_0_0_1_2_11.start (ix2 r q) idx 1
        + gather_S2048x40000_S2048x1x1_S2048x1_n_1_0_0_1_2_11.batchCoord (ix2 r q) 1
        + gather_S2048x40000_S2048x1x1_S2048x1_n_1_0_0_1_2_11.offCoord (ix2 r q) 1
      = min (idx (ix3 r q 0)).toInt.toNat (40000 - 1)
    rw [GatherDims.batchCoord_eq_zero _ _ _ (show (1 : Fin 2) ∉ ([0] : List (Fin 2)) from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x40000_S2048x1x1_S2048x1_n_1_0_0_1_2_11.startIndexMap from
      List.mem_singleton.mpr rfl)]
    have hsi : gather_S2048x40000_S2048x1x1_S2048x1_n_1_0_0_1_2_11.siIdx (ix2 r q)
        ⟨List.idxOf (1 : Fin 2) gather_S2048x40000_S2048x1x1_S2048x1_n_1_0_0_1_2_11.startIndexMap,
          List.idxOf_lt_length_iff.2 (List.mem_singleton.mpr rfl)⟩ = ix3 r q 0 := by
      funext b; refine Fin.ext ?_
      match b with
      | ⟨0, _⟩ => rfl
      | ⟨1, _⟩ => rfl
      | ⟨2, _⟩ => rfl
    rw [hsi]
    rfl

/-! ## The cells

Row r's resolution, origin and point are the argument's words 120000 + k, 120002 + k and 120004 + k, for the
coordinate k = 0, 1; the reference's quotient, sum and conversion of them is the specification's cell. -/

/-- The resolution's coordinate k. -/
theorem res_word (x : (⟨S2048x120006, .f32⟩ : BufTy).Contents (Elt Ideal)) (r : Fin 2048) (k : Fin 2) :
    val_main_v1 (F := Ideal) x (ix2 r k) = x (ix2 r ⟨120000 + k.val, by have := k.isLt; omega⟩) := by
  rw [val_main_v1_apply]
  exact congrArg x (funext fun a => Fin.ext (by
    match a with
    | ⟨0, _⟩ => rfl
    | ⟨1, _⟩ => rfl))

/-- The origin's coordinate k. -/
theorem org_word (x : (⟨S2048x120006, .f32⟩ : BufTy).Contents (Elt Ideal)) (r : Fin 2048) (k : Fin 2) :
    val_main_v2 (F := Ideal) x (ix2 r k) = x (ix2 r ⟨120002 + k.val, by have := k.isLt; omega⟩) := by
  rw [val_main_v2_apply]
  exact congrArg x (funext fun a => Fin.ext (by
    match a with
    | ⟨0, _⟩ => rfl
    | ⟨1, _⟩ => rfl))

/-- The point's coordinate k. -/
theorem pt_word (x : (⟨S2048x120006, .f32⟩ : BufTy).Contents (Elt Ideal)) (r : Fin 2048) (k : Fin 2) :
    val_main_v3 (F := Ideal) x (ix2 r k) = x (ix2 r ⟨120004 + k.val, by have := k.isLt; omega⟩) := by
  rw [val_main_v3_apply]
  exact congrArg x (funext fun a => Fin.ext (by
    match a with
    | ⟨0, _⟩ => rfl
    | ⟨1, _⟩ => rfl))

/-- The converted sum at (r, k) is the cell of coordinate k: at the ideal instance both divisions are the same one. -/
theorem cell_word (x : (⟨S2048x120006, .f32⟩ : BufTy).Contents (Elt Ideal)) (r : Fin 2048) (k : Fin 2) :
    val_main_v6 (F := Ideal) x (ix2 r k)
      = Cert.Sdf.cell (F := Ideal) (x (ix2 r ⟨120000 + k.val, by have := k.isLt; omega⟩))
          (x (ix2 r ⟨120002 + k.val, by have := k.isLt; omega⟩)) (x (ix2 r ⟨120004 + k.val, by have := k.isLt; omega⟩)) := by
  rw [val_main_v6_apply, val_main_v5_apply, val_main_v4_apply, res_word, org_word, pt_word]
  rfl

/-! ## The columns of cells as vectors

The reference slices column 0 of the cells three times and column 1 three times, each slice reshaped to a vector:
entry r of each is the cell at (r, 0), respectively (r, 1). -/

/-- Column 0, the copy that is multiplied by 200. -/
theorem col0_a (x : (⟨S2048x120006, .f32⟩ : BufTy).Contents (Elt Ideal)) (r : Fin 2048) :
    val_main_v8 (F := Ideal) x (ix1 r) = val_main_v6 (F := Ideal) x (ix2 r (0 : Fin 2)) := by
  rw [val_main_v8_apply, val_main_v7_apply]
  exact congrArg (val_main_v6 (F := Ideal) x) (funext fun a => Fin.ext (by
    match a with
    | ⟨0, _⟩ => exact Nat.div_one _
    | ⟨1, _⟩ => rfl))

/-- Column 0, the copy compared with 0. -/
theorem col0_b (x : (⟨S2048x120006, .f32⟩ : BufTy).Contents (Elt Ideal)) (r : Fin 2048) :
    val_main_v15 (F := Ideal) x (ix1 r) = val_main_v6 (F := Ideal) x (ix2 r (0 : Fin 2)) := by
  rw [val_main_v15_apply, val_main_v14_apply]
  exact congrArg (val_main_v6 (F := Ideal) x) (funext fun a => Fin.ext (by
    match a with
    | ⟨0, _⟩ => exact Nat.div_one _
    | ⟨1, _⟩ => rfl))

/-- Column 0, the copy compared with 200. -/
theorem col0_c (x : (⟨S2048x120006, .f32⟩ : BufTy).Contents (Elt Ideal)) (r : Fin 2048) :
    val_main_v19 (F := Ideal) x (ix1 r) = val_main_v6 (F := Ideal) x (ix2 r (0 : Fin 2)) := by
  rw [val_main_v19_apply, val_main_v18_apply]
  exact congrArg (val_main_v6 (F := Ideal) x) (funext fun a => Fin.ext (by
    match a with
    | ⟨0, _⟩ => exact Nat.div_one _
    | ⟨1, _⟩ => rfl))

/-- Column 1, the copy that is added. -/
theorem col1_a (x : (⟨S2048x120006, .f32⟩ : BufTy).Contents (Elt Ideal)) (r : Fin 2048) :
    val_main_v12 (F := Ideal) x (ix1 r) = val_main_v6 (F := Ideal) x (ix2 r (1 : Fin 2)) := by
  rw [val_main_v12_apply, val_main_v11_apply]
  exact congrArg (val_main_v6 (F := Ideal) x) (funext fun a => Fin.ext (by
    match a with
    | ⟨0, _⟩ => exact Nat.div_one _
    | ⟨1, _⟩ => rfl))

/-- Column 1, the copy compared with 0. -/
theorem col1_b (x : (⟨S2048x120006, .f32⟩ : BufTy).Contents (Elt Ideal)) (r : Fin 2048) :
    val_main_v24 (F := Ideal) x (ix1 r) = val_main_v6 (F := Ideal) x (ix2 r (1 : Fin 2)) := by
  rw [val_main_v24_apply, val_main_v23_apply]
  exact congrArg (val_main_v6 (F := Ideal) x) (funext fun a => Fin.ext (by
    match a with
    | ⟨0, _⟩ => exact Nat.div_one _
    | ⟨1, _⟩ => rfl))

/-- Column 1, the copy compared with 200. -/
theorem col1_c (x : (⟨S2048x120006, .f32⟩ : BufTy).Contents (Elt Ideal)) (r : Fin 2048) :
    val_main_v29 (F := Ideal) x (ix1 r) = val_main_v6 (F := Ideal) x (ix2 r (1 : Fin 2)) := by
  rw [val_main_v29_apply, val_main_v28_apply]
  exact congrArg (val_main_v6 (F := Ideal) x) (funext fun a => Fin.ext (by
    match a with
    | ⟨0, _⟩ => exact Nat.div_one _
    | ⟨1, _⟩ => rfl))

/-! ## Position, clamped position, outside flag

From here on `c0` and `c1` name the two cells of row r. -/

/-- The flat position: c0 * 200 + c1. -/
theorem pos_word (x : (⟨S2048x120006, .f32⟩ : BufTy).Contents (Elt Ideal)) (r : Fin 2048) {c0 c1 : BitVec 32}
    (h0 : val_main_v6 (F := Ideal) x (ix2 r (0 : Fin 2)) = c0) (h1 : val_main_v6 (F := Ideal) x (ix2 r (1 : Fin 2)) = c1) :
    val_main_v13 (F := Ideal) x (ix1 r) = IntOp.addi (IntOp.muli c0 200#32) c1 := by
  rw [val_main_v13_apply, val_main_v10_apply, col0_a, col1_a, h0, h1, val_main_v9_apply, val_main_c_apply]

/-- The clip to 0 .. 39999 is the specification's clamped position. -/
theorem clamp_word (x : (⟨S2048x120006, .f32⟩ : BufTy).Contents (Elt Ideal)) (r : Fin 2048) {c0 c1 : BitVec 32}
    (h0 : val_main_v6 (F := Ideal) x (ix2 r (0 : Fin 2)) = c0) (h1 : val_main_v6 (F := Ideal) x (ix2 r (1 : Fin 2)) = c1) :
    val_main_v33 (F := Ideal) x (ix1 r) = Cert.Sdf.flat c0 c1 := by
  rw [val_main_v33_apply, val_main_call0_v4_apply, val_main_call0_v3_apply, val_main_c_5_apply,
    val_main_call0_v2_apply, val_main_call0_v1_apply, val_main_call0_v0_apply, val_main_c_4_apply, pos_word x r h0 h1]
  rfl

/-- The four comparisons, joined by `or` in the specification's order. -/
theorem outside_word (x : (⟨S2048x120006, .f32⟩ : BufTy).Contents (Elt Ideal)) (r : Fin 2048) {c0 c1 : BitVec 32}
    (h0 : val_main_v6 (F := Ideal) x (ix2 r (0 : Fin 2)) = c0) (h1 : val_main_v6 (F := Ideal) x (ix2 r (1 : Fin 2)) = c1) :
    val_main_v32 (F := Ideal) x (ix1 r) = Cert.Sdf.outside c0 c1 := by
  rw [val_main_v32_apply, val_main_v27_apply, val_main_v22_apply, val_main_v17_apply, val_main_v21_apply,
    val_main_v26_apply, val_main_v31_apply, col0_b, col0_c, col1_b, col1_c, h0, h1,
    val_main_v16_apply, val_main_c_0_apply, val_main_v20_apply, val_main_c_1_apply,
    val_main_v25_apply, val_main_c_2_apply, val_main_v30_apply, val_main_c_3_apply]
  rfl

/-! ## Inside `take_along_axis` -/

/-- The clamped positions as a column. -/
theorem column_word (x : (⟨S2048x120006, .f32⟩ : BufTy).Contents (Elt Ideal)) (r : Fin 2048) (q : Fin 1) {c0 c1 : BitVec 32}
    (h0 : val_main_v6 (F := Ideal) x (ix2 r (0 : Fin 2)) = c0) (h1 : val_main_v6 (F := Ideal) x (ix2 r (1 : Fin 2)) = c1) :
    val_main_v34 (F := Ideal) x (ix2 r q) = Cert.Sdf.flat c0 c1 := by
  rw [val_main_v34_apply]
  refine Eq.trans (congrArg (val_main_v33 (F := Ideal) x) ?_) (clamp_word x r h0 h1)
  exact funext fun a => Fin.ext (by match a with | ⟨0, _⟩ => rfl)

/-- The wrap of a negative position is never taken: the clamped position is not negative. -/
theorem wrapped_word (x : (⟨S2048x120006, .f32⟩ : BufTy).Contents (Elt Ideal)) (r : Fin 2048) (q : Fin 1) {c0 c1 : BitVec 32}
    (h0 : val_main_v6 (F := Ideal) x (ix2 r (0 : Fin 2)) = c0) (h1 : val_main_v6 (F := Ideal) x (ix2 r (1 : Fin 2)) = c1) :
    val_main_call1_v4 (F := Ideal) x (ix2 r q) = Cert.Sdf.flat c0 c1 := by
  rw [val_main_call1_v4_apply, val_main_call1_v1_apply, val_main_call1_v0_apply, val_main_call1_c_apply,
    column_word x r q h0 h1, slt_zero_of_small _ (Cert.Sdf.flat_lt c0 c1), select_zero]

/-- The start indices: the same positions with two unit axes. -/
theorem start_word (x : (⟨S2048x120006, .f32⟩ : BufTy).Contents (Elt Ideal)) (r : Fin 2048) (p q : Fin 1) {c0 c1 : BitVec 32}
    (h0 : val_main_v6 (F := Ideal) x (ix2 r (0 : Fin 2)) = c0) (h1 : val_main_v6 (F := Ideal) x (ix2 r (1 : Fin 2)) = c1) :
    val_main_call1_v5 (F := Ideal) x (ix3 r p q) = Cert.Sdf.flat c0 c1 := by
  rw [val_main_call1_v5_apply]
  refine Eq.trans (congrArg (val_main_call1_v4 (F := Ideal) x) ?_) (wrapped_word x r (0 : Fin 1) h0 h1)
  exact funext fun a => Fin.ext (by
    match a with
    | ⟨0, _⟩ =>
      show ((r.val * 1 + p.val) * 1 + q.val) / 1 = r.val
      have := p.isLt; have := q.isLt; omega
    | ⟨1, _⟩ => rfl)

/-- Each start index lies in 0 .. 39999. -/
theorem mask_word (x : (⟨S2048x120006, .f32⟩ : BufTy).Contents (Elt Ideal)) (r : Fin 2048) (p q : Fin 1) {c0 c1 : BitVec 32}
    (h0 : val_main_v6 (F := Ideal) x (ix2 r (0 : Fin 2)) = c0) (h1 : val_main_v6 (F := Ideal) x (ix2 r (1 : Fin 2)) = c1) :
    val_main_call1_v11 (F := Ideal) x (ix3 r p q) = 1#1 := by
  rw [val_main_call1_v11_apply, val_main_call1_v7_apply, val_main_call1_v10_apply, start_word x r p q h0 h1,
    val_main_call1_v6_apply, val_main_call1_c_2_apply, val_main_call1_v9_apply, val_main_call1_v8_apply,
    val_main_call1_c_1_apply, sge_zero_of_small _ (Cert.Sdf.flat_lt c0 c1), sle_last_of_small _ (Cert.Sdf.flat_lt c0 c1)]
  decide

/-- So the in-range mask is 1 everywhere. -/
theorem in_range (x : (⟨S2048x120006, .f32⟩ : BufTy).Contents (Elt Ideal)) (j : S2048x1.Idx) : val_main_call1_v12 (F := Ideal) x j = 1#1 := by
  unfold val_main_call1_v12
  refine reduce_andi_ones _ _ _ _ (fun i => ?_) rfl j
  obtain ⟨r, p, q, rfl⟩ : ∃ (r : Fin 2048) (p q : Fin 1), i = ix3 r p q := ⟨i 0, i 1, i 2, eq_ix3 i⟩
  exact mask_word x r p q rfl rfl

/-- The gathered word: the table's word of row r at the clamped position. -/
theorem gathered_word (x : (⟨S2048x120006, .f32⟩ : BufTy).Contents (Elt Ideal)) (r : Fin 2048) (q : Fin 1) {c0 c1 : BitVec 32}
    (h0 : val_main_v6 (F := Ideal) x (ix2 r (0 : Fin 2)) = c0) (h1 : val_main_v6 (F := Ideal) x (ix2 r (1 : Fin 2)) = c1) :
    val_main_call1_v13 (F := Ideal) x (ix2 r q)
      = x (ix2 r ⟨(Cert.Sdf.flat c0 c1).toNat, by have := Cert.Sdf.flat_lt c0 c1; omega⟩) := by
  unfold val_main_call1_v13
  rw [gather_row, val_main_v0_apply]
  refine congrArg x (funext fun a => Fin.ext ?_)
  match a with
  | ⟨0, _⟩ => rfl
  | ⟨1, _⟩ =>
    show min (val_main_call1_v5 (F := Ideal) x (ix3 r q 0)).toInt.toNat (40000 - 1) = (Cert.Sdf.flat c0 c1).toNat
    rw [start_word x r q 0 h0 h1]
    exact clamp_of_small _ (Cert.Sdf.flat_lt c0 c1)

/-- The reference's last stage, at the ideal instance, is the lookup of the argument array. -/
theorem reference_is_G (x : (⟨S2048x120006, .f32⟩ : BufTy).Contents (Elt Ideal)) :
    val_main_v37 (F := Ideal) x = Cert.Sdf.G (F := Ideal) x := by
  funext j
  obtain ⟨r, q, rfl⟩ : ∃ (r : Fin 2048) (q : Fin 1), j = ix2 r q := ⟨j 0, j 1, eq_ix2 j⟩
  have h0 := cell_word x r (0 : Fin 2)
  have h1 := cell_word x r (1 : Fin 2)
  have e : idx_main_v36 (ix2 r q) = ix1 r := funext fun a => Fin.ext (by match a with | ⟨0, _⟩ => rfl)
  rw [val_main_v37_apply, val_main_v36_apply, e, outside_word x r h0 h1, val_main_call2_v0_apply, val_main_cst_apply,
    val_main_v35_apply, in_range, select_one, gathered_word x r q h0 h1]
  rfl

end Cert.RefBridge

end
-- ==== Proof.lean ====
/-
  The five claims about the lookup kernel and its reference.

  Both programs compute, for each of the 2048 rows of the argument, the row lookup of `Proof/Spec.lean`:
  the kernel by a masked lane sum over a 32 x 40064 block of the table (one nonzero term, at the clamped
  position), the reference by a gather at the clamped position.  The three frames: the two kernel programs run
  their one pipeline to the end with the argument array unchanged (the table window is never cut at the array's
  end, its column block always the first); the reference is a straight line of host operations.  The ideal pass
  rewrote nothing, so the idealized kernel is the kernel's own text.  At the ideal instance both results are
  `Sdf.G` of the argument array.
-/
import proofs.«152569_j56307021251002_1_alg».proof.Defs
import proofs.«152569_j56307021251002_1_alg».proof.Proof.Gen.Kernel
import proofs.«152569_j56307021251002_1_alg».proof.Proof.Gen.KernelIdeal
import proofs.«152569_j56307021251002_1_alg».proof.Proof.Gen.ReferenceIdeal
import proofs.«152569_j56307021251002_1_alg».proof.Proof.Gen.Pre_finite_inputs
import proofs.«152569_j56307021251002_1_alg».proof.Proof.Gen.ReferenceIdeal.Run
import proofs.«152569_j56307021251002_1_alg».proof.Proof.Gen.ReferenceIdeal.Read
import proofs.«152569_j56307021251002_1_alg».proof.Proof.Kernel.Body
import proofs.«152569_j56307021251002_1_alg».proof.Proof.KernelIdeal.Body
import proofs.«152569_j56307021251002_1_alg».proof.Proof.KernelValue
import proofs.«152569_j56307021251002_1_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel program runs to the end and leaves the argument unchanged. -/
theorem frame_kernel : Cert.frame_Kernel := fun m ρ _ => Cert.Kernel.Hand.frame m ρ

/-- So does its idealization, read at the ideal instance. -/
theorem frame_kernelIdeal : Cert.frame_KernelIdeal := fun m ρ _ => Cert.KernelIdeal.Hand.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the argument both programs end with the result array at the lookup of the argument. -/
theorem algebraic : Cert.algebraic_KernelIdeal_ReferenceIdeal := by
  intro m ρ m' ρ' _ hagree
  refine ⟨fun c => Cert.Sdf.G (F := Ideal) (m ((c.tc : Thread Cert.KernelIdeal.nD Cert.KernelIdeal.τ).loc Cert.KernelIdeal.main_arg0)),
    Cert.KernelIdeal.Hand.value_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v37_eq, Cert.RefBridge.reference_is_G, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
